-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S1024x512 : Shape := ⟨2, ![1024, 512]⟩
abbrev S1024 : Shape := ⟨1, ![1024]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S512x512 .f32) (main_arg1 : FVec F S1024x512 .f32) (main_arg2 : FVec F S1024 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S512x512 : Shape := ⟨2, ![512, 512]⟩
abbrev S1024x512 : Shape := ⟨2, ![1024, 512]⟩
abbrev S1024 : Shape := ⟨1, ![1024]⟩
abbrev S1024x1 : Shape := ⟨2, ![1024, 1]⟩
abbrev S64x16x512 : Shape := ⟨3, ![64, 16, 512]⟩
abbrev S64x512 : Shape := ⟨2, ![64, 512]⟩
abbrev S16x16x512 : Shape := ⟨3, ![16, 16, 512]⟩
abbrev S16x512 : Shape := ⟨2, ![16, 512]⟩
abbrev S16x512x512 : Shape := ⟨3, ![16, 512, 512]⟩
abbrev S16x1x512 : Shape := ⟨3, ![16, 1, 512]⟩
abbrev S16x512x1 : Shape := ⟨3, ![16, 512, 1]⟩
abbrev S1x512x512 : Shape := ⟨3, ![1, 512, 512]⟩
abbrev S512x64 : Shape := ⟨2, ![512, 64]⟩
abbrev S512x576 : Shape := ⟨2, ![512, 576]⟩

abbrev nBuf : Space → Nat
  | .hbm => 8
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S1024, .f32⟩
  | .hbm, ⟨3, _⟩ => ⟨S1024x512, .f32⟩
  | .hbm, ⟨4, _⟩ => ⟨S64x16x512, .f32⟩
  | .hbm, ⟨5, _⟩ => ⟨S64x512, .f32⟩
  | .hbm, ⟨6, _⟩ => ⟨S512x64, .f32⟩
  | .hbm, ⟨7, _⟩ => ⟨S512x576, .f32⟩
  | .local _ .vmem, ⟨0, _⟩ => ⟨S512x512, .f32⟩
  | .local _ .vmem, ⟨1, _⟩ => ⟨S1024x512, .f32⟩
  | .local _ .vmem, ⟨2, _⟩ => ⟨S1024, .f32⟩
  | .local _ .vmem, ⟨3, _⟩ => ⟨S1024x512, .f32⟩
  | .local _ .vmem, ⟨4, _⟩ => ⟨S16x16x512, .f32⟩
  | .local _ .vmem, ⟨5, _⟩ => ⟨S16x16x512, .f32⟩
  | .local _ .vmem, ⟨6, _⟩ => ⟨S16x512, .f32⟩
  | .local _ .vmem, ⟨7, _⟩ => ⟨S16x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x512 : S1024x1.Broadcasts S1024x512
  shapeCasts_S1024x512_S64x16x512 : S1024x512.ShapeCasts S64x16x512
  inb_S16x16x512_S16x16x512_0_0_0 : ∀ a, (![0, 0, 0] : Fin 3 → Nat) a + S16x16x512.size a ≤ S16x16x512.size a
  h_S16x16x512 : 0 < S16x16x512.numel
  shapeCasts_S16x16x512_S16x16x512 : S16x16x512.ShapeCasts S16x16x512
  slices_S16x16x512_o0_0_0_S16x1x512 : S16x16x512.Slices ![0, 0, 0] S16x1x512
  shapeCasts_S16x1x512_S16x512 : S16x1x512.ShapeCasts S16x512
  shapeCasts_S16x512_S16x512x1 : S16x512.ShapeCasts S16x512x1
  shapeCasts_S16x512_S16x1x512 : S16x512.ShapeCasts S16x1x512
  broadcasts_S16x512x1_S16x512x512 : S16x512x1.Broadcasts S16x512x512
  broadcasts_S16x1x512_S16x512x512 : S16x1x512.Broadcasts S16x512x512
  slices_S16x16x512_o0_1_0_S16x1x512 : S16x16x512.Slices ![0, 1, 0] S16x1x512
  slices_S16x16x512_o0_2_0_S16x1x512 : S16x16x512.Slices ![0, 2, 0] S16x1x512
  slices_S16x16x512_o0_3_0_S16x1x512 : S16x16x512.Slices ![0, 3, 0] S16x1x512
  slices_S16x16x512_o0_4_0_S16x1x512 : S16x16x512.Slices ![0, 4, 0] S16x1x512
  slices_S16x16x512_o0_5_0_S16x1x512 : S16x16x512.Slices ![0, 5, 0] S16x1x512
  slices_S16x16x512_o0_6_0_S16x1x512 : S16x16x512.Slices ![0, 6, 0] S16x1x512
  slices_S16x16x512_o0_7_0_S16x1x512 : S16x16x512.Slices ![0, 7, 0] S16x1x512
  slices_S16x16x512_o0_8_0_S16x1x512 : S16x16x512.Slices ![0, 8, 0] S16x1x512
  slices_S16x16x512_o0_9_0_S16x1x512 : S16x16x512.Slices ![0, 9, 0] S16x1x512
  slices_S16x16x512_o0_10_0_S16x1x512 : S16x16x512.Slices ![0, 10, 0] S16x1x512
  slices_S16x16x512_o0_11_0_S16x1x512 : S16x16x512.Slices ![0, 11, 0] S16x1x512
  slices_S16x16x512_o0_12_0_S16x1x512 : S16x16x512.Slices ![0, 12, 0] S16x1x512
  slices_S16x16x512_o0_13_0_S16x1x512 : S16x16x512.Slices ![0, 13, 0] S16x1x512
  slices_S16x16x512_o0_14_0_S16x1x512 : S16x16x512.Slices ![0, 14, 0] S16x1x512
  slices_S16x16x512_o0_15_0_S16x1x512 : S16x16x512.Slices ![0, 15, 0] S16x1x512
  iota_S512x512_d0_w32 : S512x512.Iotas .tc 32 [0]
  iota_S512x512_d1_w32 : S512x512.Iotas .tc 32 [1]
  shapeCasts_S512x512_S1x512x512 : S512x512.ShapeCasts S1x512x512
  broadcasts_S1x512x512_S16x512x512 : S1x512x512.Broadcasts S16x512x512
  reduces_S16x512x512_S16x512 : S16x512x512.Reduces [2] S16x512
  inb_S16x512_S16x512_0_0 : ∀ a, (![0, 0] : Fin 2 → Nat) a + S16x512.size a ≤ S16x512.size a
  h_S16x512 : 0 < S16x512.numel
  transposes_S64x512_S512x64_1_0 : S64x512.Transposes [1, 0] S512x64
  concatenates_S512x512_S512x64_S512x576_d1 : Shape.Concatenates [S512x512, S512x64] S512x576 1
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x16x512.size a ≤ S64x16x512.size a
  hwx1_0 : ∀ i : grid1.Coords, EltTy.bits .f32 = 32 ∨ (Rect.block (s := S64x16x512) S16x16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S64x512.size a
  hwx1_1 : ∀ i : grid1.Coords, EltTy.bits .f32 = 32 ∨ (Rect.block (s := S64x512) S16x512.size (cc1_transform_1 i) (hinb1_1 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S16x16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S16x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S512x512 : Shape := ⟨2, ![512, 512]⟩
abbrev S1024x512 : Shape := ⟨2, ![1024, 512]⟩
abbrev S1024 : Shape := ⟨1, ![1024]⟩
abbrev S512x1024 : Shape := ⟨2, ![512, 1024]⟩
abbrev S1x1024 : Shape := ⟨2, ![1, 1024]⟩
abbrev S512x64x16 : Shape := ⟨3, ![512, 64, 16]⟩
abbrev S512x64x16x1 : Shape := ⟨4, ![512, 64, 16, 1]⟩
abbrev S64x16x512 : Shape := ⟨3, ![64, 16, 512]⟩
abbrev S1x64x16x512 : Shape := ⟨4, ![1, 64, 16, 512]⟩
abbrev S512x64x16x512 : Shape := ⟨4, ![512, 64, 16, 512]⟩
abbrev S_ : Shape := ⟨0, ![]⟩
abbrev S512x64x512 : Shape := ⟨3, ![512, 64, 512]⟩
abbrev S512x1x512 : Shape := ⟨3, ![512, 1, 512]⟩
abbrev S512x64 : Shape := ⟨2, ![512, 64]⟩
abbrev S512x576 : Shape := ⟨2, ![512, 576]⟩

abbrev nBuf : Space → Nat
  | .hbm => 36
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S1024, .f32⟩
  | .hbm, ⟨3, _⟩ => ⟨S512x1024, .f32⟩
  | .hbm, ⟨4, _⟩ => ⟨S512x1024, .f32⟩
  | .hbm, ⟨5, _⟩ => ⟨S1x1024, .f32⟩
  | .hbm, ⟨6, _⟩ => ⟨S512x1024, .f32⟩
  | .hbm, ⟨7, _⟩ => ⟨S512x1024, .f32⟩
  | .hbm, ⟨8, _⟩ => ⟨S512x64x16, .f32⟩
  | .hbm, ⟨9, _⟩ => ⟨S512x64x16x1, .f32⟩
  | .hbm, ⟨10, _⟩ => ⟨S64x16x512, .f32⟩
  | .hbm, ⟨11, _⟩ => ⟨S1x64x16x512, .f32⟩
  | .hbm, ⟨12, _⟩ => ⟨S512x64x16x512, .f32⟩
  | .hbm, ⟨13, _⟩ => ⟨S512x64x16x512, .f32⟩
  | .hbm, ⟨14, _⟩ => ⟨S512x64x16x512, .f32⟩
  | .hbm, ⟨15, _⟩ => ⟨S512x64x16x512, .f32⟩
  | .hbm, ⟨16, _⟩ => ⟨S_, .f32⟩
  | .hbm, ⟨17, _⟩ => ⟨S512x64x512, .f32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i32⟩
  | .hbm, ⟨23, _⟩ => ⟨S512x512, .i1⟩
  | .hbm, ⟨24, _⟩ => ⟨S512x512, .f32⟩
  | .hbm, ⟨25, _⟩ => ⟨S512x1x512, .f32⟩
  | .hbm, ⟨26, _⟩ => ⟨S_, .f32⟩
  | .hbm, ⟨27, _⟩ => ⟨S512x1x512, .f32⟩
  | .hbm, ⟨28, _⟩ => ⟨S512x1x512, .f32⟩
  | .hbm, ⟨29, _⟩ => ⟨S512x64x512, .f32⟩
  | .hbm, ⟨30, _⟩ => ⟨S512x64x512, .f32⟩
  | .hbm, ⟨31, _⟩ => ⟨S512x64x512, .f32⟩
  | .hbm, ⟨32, _⟩ => ⟨S512x64x512, .f32⟩
  | .hbm, ⟨33, _⟩ => ⟨S_, .f32⟩
  | .hbm, ⟨34, _⟩ => ⟨S512x64, .f32⟩
  | .hbm, ⟨35, _⟩ => ⟨S512x576, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  shapeCasts_S512x1024_S512x64x16 : S512x1024.ShapeCasts S512x64x16
  bcast_S512x64x16_S512x64x16x1_0_1_2 : S512x64x16.BroadcastsInDim S512x64x16x1 (![0, 1, 2] : Fin 3 → Fin S512x64x16x1.rank)
  transposes_S512x64x16_S64x16x512_1_2_0 : S512x64x16.Transposes [1, 2, 0] S64x16x512
  bcast_S64x16x512_S1x64x16x512_1_2_3 : S64x16x512.BroadcastsInDim S1x64x16x512 (![1, 2, 3] : Fin 3 → Fin S1x64x16x512.rank)
  bcast_S512x64x16x1_S512x64x16x512_0_1_2_3 : S512x64x16x1.BroadcastsInDim S512x64x16x512 (![0, 1, 2, 3] : Fin 4 → Fin S512x64x16x512.rank)
  bcast_S1x64x16x512_S512x64x16x512_0_1_2_3 : S1x64x16x512.BroadcastsInDim S512x64x16x512 (![0, 1, 2, 3] : Fin 4 → Fin S512x64x16x512.rank)
  reducesTo_S512x64x16x512_S512x64x512_d2 : S512x64x16x512.ReducesTo [2] S512x64x512
  h_S_ : 0 < S_.numel
  bcast_S_S512x512 : S_.BroadcastsInDim S512x512 (![] : Fin 0 → Fin S512x512.rank)
  bcast_S512x512_S512x1x512_0_2 : S512x512.BroadcastsInDim S512x1x512 (![0, 2] : Fin 2 → Fin S512x1x512.rank)
  bcast_S_S512x1x512 : S_.BroadcastsInDim S512x1x512 (![] : Fin 0 → Fin S512x1x512.rank)
  bcast_S512x1x512_S512x64x512_0_1_2 : S512x1x512.BroadcastsInDim S512x64x512 (![0, 1, 2] : Fin 3 → Fin S512x64x512.rank)
  reducesTo_S512x64x512_S512x64_d2 : S512x64x512.ReducesTo [2] S512x64
  concatenates_S512x512_S512x64_S512x576_d1 : Shape.Concatenates [S512x512, S512x64] S512x576 1
  dot_S512x512_S512x1024_S512x1024_1_0_0_1_n_n_wf : DotDims.WF S512x512 S512x1024 S512x1024 [1] [0] [0] [1] [] []

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

class Facts : Prop extends Facts₀ where

variable [Facts]
-- ==== Proof.Spec.lean ====
/-
  The mathematics both programs compute, over the extended reals.

  From a batch x of 512 samples (rows of a 512×512 array), a weight matrix W (1024×512) and a bias b (1024 entries),
  sample n has 1024 projected features  proj r n = Σ_i W(r, i) · x(n, i) + b(r),  read as 64 groups of 16 consecutive
  rows: row (k, d) is r = 16·k + d.

  Inside a group, the distance between samples i and j is the L1 distance of their 16 features,
  dist i j = Σ_d |f d i − f d j|, to which a fixed penalty is added on the diagonal i = j (so that a sample does not
  count as its own neighbour); the similarity of sample i to the batch, in that group, is
  sim i = Σ_j exp(−(dist i j + penalty i j)).

  The result array has 576 columns: the 512 columns of x, then the 64 group similarities of each sample.
-/
import Idealize.ShloMosaic.Lib.ValueIdx
import Idealize.ShloMosaic.PureOps.Ideal.Laws

noncomputable section

namespace Cert.BatchSim

open Idealize.ShloMosaic Idealize.ShloMosaic.ValueIdx

/-- The batch: 512 samples of 512 inputs. -/
abbrev SBatch : Shape := ⟨2, ![512, 512]⟩
/-- The weights: 1024 feature rows of 512 inputs. -/
abbrev SWeight : Shape := ⟨2, ![1024, 512]⟩
/-- The bias: one entry per feature row. -/
abbrev SBias : Shape := ⟨1, ![1024]⟩

/-- Feature row `r` of sample `n`: the weights' row `r` against the sample, plus the row's bias. -/
def proj (x : SBatch.Idx → EReal) (W : SWeight.Idx → EReal) (b : SBias.Idx → EReal) (r : Fin 1024) (n : Fin 512) : EReal :=
  (∑ i : Fin 512, W (ix2 r i) * x (ix2 n i)) + b (ix1 r)

/-- The feature row that is coordinate `d` of group `k`. -/
def row (k : Fin 64) (d : Fin 16) : Fin 1024 := ⟨k.val * 16 + d.val, by have := k.isLt; have := d.isLt; omega⟩

/-- The penalty that keeps a sample from being its own neighbour: a fixed large number on the diagonal, nothing off it. -/
def penalty (i j : Fin 512) : EReal := if i = j then Ideal.ofBits .f32 0x49742400#32 else 0

/-- The L1 distance between samples `i` and `j` over a group's 16 features `f d ·`. -/
def dist (f : Fin 16 → Fin 512 → EReal) (i j : Fin 512) : EReal :=
  ∑ d : Fin 16, max (f d i - f d j) (-(f d i - f d j))

/-- The similarity of sample `i` to the whole batch over a group's features. -/
def sim (f : Fin 16 → Fin 512 → EReal) (i : Fin 512) : EReal :=
  ∑ j : Fin 512, Ideal.exp (-(dist f i j + penalty i j))

/-- The similarity of sample `n` in group `k`, from the three arguments. -/
def groupSim (x : SBatch.Idx → EReal) (W : SWeight.Idx → EReal) (b : SBias.Idx → EReal) (k : Fin 64) (n : Fin 512) : EReal :=
  sim (fun d j => proj x W b (row k d) j) n

/-- A sum of sixteen terms, written out from the left starting at zero. -/
theorem sum_sixteen {M : Type*} [AddCommMonoid M] (g : Fin 16 → M) :
    ∑ d, g d = 0 + g 0 + g 1 + g 2 + g 3 + g 4 + g 5 + g 6 + g 7 + g 8 + g 9 + g 10 + g 11 + g 12 + g 13 + g 14 + g 15 := by
  simp only [Fin.sum_univ_castSucc, Fin.sum_univ_zero]
  rfl

end Cert.BatchSim

end
-- ==== Proof.LibProductNT.lean ====
/-
  A matrix times the transpose of another, over the extended reals.

  Entry (a, b) of A·Bᵀ, for an r×k matrix A and an n×k matrix B, is the sum over the shared column coordinate c of
  A(a, c) · B(b, c). Addition of extended reals is commutative and associative, so this is a plain finite sum: no order
  of summation is left in it and nothing asks that an entry be finite.

  The matrix unit forms such a product (both operands contracted along axis 1) and adds it to an accumulator; into a zero
  accumulator it leaves exactly that entry (`matmul_zero_apply`), whatever float formats the factors were narrowed to on
  the way, a change of format being the identity at the ideal values.

  A long row splits into consecutive stretches of equal length: a sum over m·n columns is the sum over the m stretches of
  the sums over each stretch's n columns (`sum_stretches`).
-/
import Idealize.ShloMosaic.Lib.ValueIdx
import Idealize.ShloMosaic.PureOps.Ideal.Laws
import Mathlib.Algebra.BigOperators.Fin
import Mathlib.Logic.Equiv.Fin.Basic

noncomputable section

namespace ProductNT

open Idealize.ShloMosaic Idealize.ShloMosaic.ValueIdx

variable {r k n : Nat}

/-- Entry (a, b) of A·Bᵀ. -/
def entry (A : (⟨2, ![r, k]⟩ : Shape).Idx → EReal) (B : (⟨2, ![n, k]⟩ : Shape).Idx → EReal) (a : Fin r) (b : Fin n) : EReal :=
  ∑ c : Fin k, A (ix2 a c) * B (ix2 b c)

/-- The matrix unit's product of an r×k by an n×k operand, both contracted along their second axis, accumulated into a
    zero block and read at (a, b), is that entry. -/
theorem matmul_zero_apply {φ₁ φ₂ : FTy}
    (w : DotDims.WF ⟨2, ![r, k]⟩ ⟨2, ![n, k]⟩ ⟨2, ![r, n]⟩ [1] [1] [0] [0] [] [])
    (prec : Option ContractPrecision) (A : FVec Ideal ⟨2, ![r, k]⟩ φ₁) (B : FVec Ideal ⟨2, ![n, k]⟩ φ₂) (a : Fin r) (b : Fin n) :
    matmul (⟨[1], [1], [0], [0], [], [], w⟩ : DotDims _ _ _) prec A B (constant (F := Ideal) ⟨2, ![r, n]⟩ .f32 0x00000000#32) (ix2 a b)
      = entry A B a b := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![r, k]⟩ ⟨2, ![n, k]⟩ ⟨2, ![r, n]⟩) k rfl rfl c
  have l2 : (⟨[1], [1], [0], [0], [], [], w⟩ : DotDims ⟨2, ![r, k]⟩ ⟨2, ![n, k]⟩ ⟨2, ![r, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![r, k]⟩ ⟨2, ![n, k]⟩ ⟨2, ![r, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A sum over m·n consecutive columns is the sum, over the m stretches of n columns, of each stretch's sum. -/
theorem sum_stretches {M : Type*} [AddCommMonoid M] (m n : Nat) (f : Fin (m * n) → M) :
    ∑ c : Fin (m * n), f c
      = ∑ s : Fin m, ∑ j : Fin n, f ⟨s.val * n + j.val, by
          have hs := s.isLt; have hj := j.isLt
          calc s.val * n + j.val < s.val * n + n := by omega
            _ = (s.val + 1) * n := by ring
            _ ≤ m * n := Nat.mul_le_mul_right n hs⟩ := by
  rw [← Equiv.sum_comp finProdFinEquiv f, Fintype.sum_prod_type]
  refine Finset.sum_congr rfl fun s _ => Finset.sum_congr rfl fun j _ => congrArg f (Fin.ext ?_)
  show j.val + n * s.val = s.val * n + j.val
  rw [Nat.mul_comm, Nat.add_comm]

end ProductNT

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Linear.lean ====
/-
  The first kernel: the projection of the batch.

  Its grid has one point, and every window's block is its whole array. The body multiplies the weights (1024×512) by the
  transpose of the batch (512×512) on the matrix unit into a zero accumulator, and adds the bias, one entry per feature row,
  broadcast along the samples: entry (r, n) of what it stores is  Σ_i W(r, i) · x(n, i) + b(r) = proj x W b r n.
  The one block written back is the whole result array, so after the region that array is the projection, entry by entry.
-/
import proofs.«161638_j64802466562626_1_alg».proof.Proof.Gen.KernelIdeal.Frame
import proofs.«161638_j64802466562626_1_alg».proof.Proof.Spec
import proofs.«161638_j64802466562626_1_alg».proof.Proof.LibProductNT
import proofs.«161638_j64802466562626_1_alg».proof.Proof.LibKeepdims
import Idealize.ShloMosaic.Lib.Pipeline.Value
import Idealize.ShloMosaic.Lib.ValueIdx
import Idealize.ShloMosaic.PureOps.Ideal.Laws

noncomputable section

namespace Cert.KernelIdeal.Linear

open Cert.KernelIdeal Cert.KernelIdeal.Gen Idealize.ShloMosaic Idealize.ShloMosaic.TcCoe Idealize.SL.Sem
open Idealize.ShloMosaic.ValueIdx Cert.BatchSim
open Idealize.ShloMosaic.Pipeline (Dat)

/-- What the body stores, at feature row `r` and sample `n`: the matrix unit's product of the weights with the transposed
    batch, plus the row's bias. -/
theorem stored_apply (W : Vec Ideal S1024x512 .f32) (x : Vec Ideal S512x512 .f32) (b : Vec Ideal S1024 .f32)
    (r : Fin 1024) (n : Fin 512) : k0_pay1 (F := Ideal) W x b (ix2 r n) = proj x W b r n := by
  unfold k0_pay1 proj
  show matmul dot_S1024x512_S512x512_S1024x512_1_1_0_0_n_n (some .fp32) W x (constant (F := Ideal) S1024x512 .f32 0x00000000#32) (ix2 r n)
      + broadcastTo S1024x512 (shapeCast S1024x1 b shapeCasts_S1024_S1024x1) broadcasts_S1024x1_S1024x512 (ix2 r n) = _
  rw [broadcastTo_a1_ab_apply, shapeCast_a_a1_apply]
  refine congrArg (· + b (ix1 r)) ?_
  exact ProductNT.matmul_zero_apply (r := 1024) (k := 512) (n := 512) Facts₀.dot_S1024x512_S512x512_S1024x512_1_1_0_0_n_n_wf (some .fp32) W x r n

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-- The result array of the region, from the arrays it finds: the projection, entry by entry. -/
def projArr (c : Dev nD) : Vec Ideal S1024x512 .f32 := fun y =>
  proj (V c main_arg0) (V c main_arg1) (V c main_arg2) ⟨(y 0).val, (y 0).isLt⟩ ⟨(y 1).val, (y 1).isLt⟩

/-- Every window's block index is zero at the grid's one point. -/
theorem idx_zero : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 :=
  (by decide +kernel : ∀ t : Fin grid0.N, _)

/-- The batch window's block is the batch. -/
theorem block_batch (c : Dev nD) (t : Fin cfg0.N) : (iblk0 V c 0 t : Vec Ideal S512x512 .f32) = V c main_arg0 := by
  obtain ⟨e0, e1, -⟩ := idx_zero t
  funext y
  unfold iblk0
  rw [View.read_apply]
  show V c main_arg0 _ = V c main_arg0 y
  refine congrArg (V c main_arg0) (funext fun a => Fin.ext ?_)
  match a with
  | ⟨0, _⟩ => show win0_0.index t (0 : Fin 2) * 512 + 1 * (y 0).val = (y 0).val; omega
  | ⟨1, _⟩ => show win0_0.index t (1 : Fin 2) * 512 + 1 * (y 1).val = (y 1).val; omega

/-- The weight window's block is the weight matrix. -/
theorem block_weight (c : Dev nD) (t : Fin cfg0.N) : (iblk0 V c 1 t : Vec Ideal S1024x512 .f32) = V c main_arg1 := by
  obtain ⟨-, -, e0, e1, -⟩ := idx_zero t
  funext y
  unfold iblk0
  rw [View.read_apply]
  show V c main_arg1 _ = V c main_arg1 y
  refine congrArg (V c main_arg1) (funext fun a => Fin.ext ?_)
  match a with
  | ⟨0, _⟩ => show win0_1.index t (0 : Fin 2) * 1024 + 1 * (y 0).val = (y 0).val; omega
  | ⟨1, _⟩ => show win0_1.index t (1 : Fin 2) * 512 + 1 * (y 1).val = (y 1).val; omega

/-- The bias window's block is the bias. -/
theorem block_bias (c : Dev nD) (t : Fin cfg0.N) : (iblk0 V c 2 t : Vec Ideal S1024 .f32) = V c main_arg2 := by
  obtain ⟨-, -, -, -, e0, -⟩ := idx_zero t
  funext y
  unfold iblk0
  rw [View.read_apply]
  show V c main_arg2 _ = V c main_arg2 y
  refine congrArg (V c main_arg2) (funext fun a => Fin.ext ?_)
  match a with
  | ⟨0, _⟩ => show win0_2.index t (0 : Fin 1) * 1024 + 1 * (y 0).val = (y 0).val; omega

/-- What the one point writes back is the (whole) block of the projection. -/
theorem flushed_eq (c : Dev nD) (t : Fin cfg0.N) :
    (dat0 V c).flushed 3 t = ((cfg0.win 3).blk t).view.read (Elt Ideal) (projArr V c) := by
  obtain ⟨-, -, -, -, -, e0, e1⟩ := idx_zero t
  show (cfg0.win 3).cut (grid0.coords t) ((dat0 V c).after 3 t) = _
  rw [after0_3]
  unfold out0_3
  rw [View.canon_unit_zero hz2]
  simp only [View.ld_unit_zero (S := S1024x512) hz2, View.ld_unit_zero (S := S512x512) hz2, View.ld_unit_zero (S := S1024) hz1]
  rw [block_batch V c t, block_weight V c t, block_bias V c t]
  have key : ∀ y : S1024x512.Idx, k0_pay1 (F := Ideal) (V c main_arg1) (V c main_arg0) (V c main_arg2) y
      = projArr V c (((cfg0.win 3).blk t).view.emb y) := fun y => by
    obtain ⟨r, n, rfl⟩ : ∃ (r : Fin 1024) (n : Fin 512), y = ix2 r n := ⟨y 0, y 1, eq_ix2 y⟩
    rw [stored_apply]
    unfold projArr
    have h0 : ((((cfg0.win 3).blk t).view.emb (ix2 r n)) 0).val = r.val := by
      show win0_3.index t (0 : Fin 2) * 1024 + 1 * r.val = r.val; omega
    have h1 : ((((cfg0.win 3).blk t).view.emb (ix2 r n)) 1).val = n.val := by
      show win0_3.index t (1 : Fin 2) * 512 + 1 * n.val = n.val; omega
    exact congr (congrArg _ (Fin.ext h0.symm)) (Fin.ext h1.symm)
  exact funext key

/-- After the region the result array is the projection. -/
theorem final (c : Dev nD) : (dat0 V c).arrAt 3 cfg0.N = projArr V c :=
  (dat0 V c).arrAt_eq_of_cover 3 (projArr V c) (fun t _ => flushed_eq V c t) fun i =>
    ⟨t0_0, flush0_3 t0_0, by
      obtain ⟨-, -, -, -, -, e0, e1⟩ := idx_zero t0_0
      show i ∈ ((View.whole main_v0).slice (win0_3.rect t0_0)).set
      rw [View.set_slice_whole, Rect.mem_set_unit]
      intro a
      have h0 : (i 0 : Nat) < 1024 := (i 0).isLt
      have h1 : (i 1 : Nat) < 512 := (i 1).isLt
      match a with
      | ⟨0, _⟩ => show win0_3.index t0_0 (0 : Fin 2) * 1024 ≤ (i 0 : Nat) ∧ (i 0 : Nat) < win0_3.index t0_0 (0 : Fin 2) * 1024 + 1024; omega
      | ⟨1, _⟩ => show win0_3.index t0_0 (1 : Fin 2) * 512 ≤ (i 1 : Nat) ∧ (i 1 : Nat) < win0_3.index t0_0 (1 : Fin 2) * 512 + 512; omega⟩

end Cert.KernelIdeal.Linear

end
-- ==== Proof.LibKeepdims3.lean ====
/-
  The keep-dimension forms of a reduction over the last axis of a rank-3 array, read at an index: an [a, b] array cast
  to the column form [a, b, 1], and an [a, b, 1] array broadcast along the last axis to [a, b, c].
-/
import Idealize.ShloMosaic.Lib.Pipeline.Value
import Idealize.ShloMosaic.Lib.ValueLayout
import Idealize.ShloMosaic.Lib.ValueIdx

noncomputable section

namespace Cert.Keepdims3

open Idealize.ShloMosaic Idealize.ShloMosaic.ValueIdx

/-- An [a, b] array cast to [a, b, 1] reads, at (i, j, u), the operand at (i, j), whatever the unit coordinate u. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand's one entry of (i, j). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.Keepdims3

end
-- ==== Proof.LibMiddleUnit.lean ====
/-
  Layout operations around a unit MIDDLE axis or a unit LEADING axis of a rank-3 array, read at an index given by
  coordinates: an [a, b] array cast to the row form [a, 1, b] and back, an [a, 1, b] array broadcast along its middle
  axis to [a, c, b], and a [1, a, b] array broadcast along its leading axis to [c, a, b]. Together with the column forms
  ([a, b] cast to [a, b, 1], and [a, b, 1] broadcast to [a, b, c]) they read an outer difference x(i) − x(j) laid out over
  a pair of axes.
-/
import Idealize.ShloMosaic.Lib.Pipeline.Value
import Idealize.ShloMosaic.Lib.ValueLayout
import Idealize.ShloMosaic.Lib.ValueIdx

noncomputable section

namespace Cert.MiddleUnit

open Idealize.ShloMosaic Idealize.ShloMosaic.ValueIdx

/-- An [a, b] array cast to the row form [a, 1, b] reads, at (i, u, j), the operand at (i, j), whatever the unit
    coordinate u. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, b] array cast to [a, b] reads, at (i, j), the operand at (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An [a, 1, b] array broadcast along the middle axis to [a, c, b] reads, at (i, k, j), the operand's one entry of
    (i, j). -/
theorem broadcastTo_a1b_acb_apply {α : Type} {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A [1, a, b] array broadcast along the leading axis to [c, a, b] reads, at (k, i, j), the operand at (0, i, j). -/
theorem broadcastTo_1ab_cab_apply {α : Type} {a b c : ℕ} (v : (⟨3, ![1, a, b]⟩ : Shape).Idx → α)
    (h : (⟨3, ![1, a, b]⟩ : Shape).Broadcasts ⟨3, ![c, a, b]⟩) (k : Fin c) (i : Fin a) (j : Fin b) :
    broadcastTo ⟨3, ![c, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Cert.MiddleUnit

end
-- ==== Proof.PairBody.lean ====
/-
  The second kernel's body, read at an entry.

  One grid point of the second kernel loads a block v of 16 feature groups (16 features each, 512 samples) and stores, for
  group k of the block and sample i, the sum over all samples j of exp(−(acc + penalty)), where acc is built by adding the
  sixteen absolute differences |v(k, d, i) − v(k, d, j)| one after another onto a zero array, and the penalty is the
  diagonal mask of two iotas selecting a fixed constant. Addition on the extended reals is commutative and associative, so
  the sixteen additions are the sum over d: the stored entry is the group similarity `sim`.
-/
import proofs.«161638_j64802466562626_1_alg».proof.Proof.Gen.KernelIdeal.Skeleton
import proofs.«161638_j64802466562626_1_alg».proof.Proof.Spec
import proofs.«161638_j64802466562626_1_alg».proof.Proof.LibKeepdims3
import proofs.«161638_j64802466562626_1_alg».proof.Proof.LibMiddleUnit
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.PairBody

open Cert.KernelIdeal Cert.KernelIdeal.Gen Idealize.ShloMosaic Idealize.ShloMosaic.ValueIdx Cert.BatchSim Cert.MiddleUnit

/-- The absolute difference of feature d of group k between samples i and j. -/
private def gap (w : FVec Ideal S16x16x512 .f32) (k : Fin 16) (i j : Fin 512) (d : Fin 16) : EReal :=
  max (w (ix3 k d i) - w (ix3 k d j)) (-(w (ix3 k d i) - w (ix3 k d j)))

/-- The exponential of an array reads the exponential of the entry. -/
private theorem exp_apply {s : Shape} {φ : FTy} (a : FVec Ideal s φ) (i : s.Idx) : exp a i = Ideal.exp (a i) := rfl

/-- The absolute value of an array reads the larger of the entry and its negation. -/
private theorem absf_apply {s : Shape} {φ : FTy} (a : FVec Ideal s φ) (i : s.Idx) : absf a i = max (a i) (-(a i)) := rfl

/-- The block's shape cast to its own shape is the block. -/
private theorem pay2_eq (v : Vec Ideal S16x16x512 .f32) : k1_pay2 (F := Ideal) v = v := shapeCast_self _ _

/-- A feature that can be cut out of the block is one of its sixteen. -/
private theorem slice_lt {d : ℕ} (h : S16x16x512.Slices ![0, d, 0] S16x1x512) : d < 16 := h.2 1

/-- One of the sixteen differences, read at (k, i, j): feature d of group k, cut out of the block, laid along the
    columns and along the rows and subtracted, is w(k, d, i) − w(k, d, j). -/
private theorem diff_apply (w : FVec Ideal S16x16x512 .f32) (d : ℕ)
    (h : S16x16x512.Slices ![0, d, 0] S16x1x512) (h1 : S16x1x512.ShapeCasts S16x512)
    (h2 : S16x512.ShapeCasts S16x512x1) (h3 : S16x512x1.Broadcasts S16x512x512)
    (h4 : S16x512.ShapeCasts S16x1x512) (h5 : S16x1x512.Broadcasts S16x512x512)
    (k : Fin 16) (i j : Fin 512) :
    subf
        (broadcastTo S16x512x512 (shapeCast S16x512x1 (shapeCast S16x512 (extractStridedSlice S16x1x512 ![0, d, 0] w h) h1) h2) h3)
        (broadcastTo S16x512x512 (shapeCast S16x1x512 (shapeCast S16x512 (extractStridedSlice S16x1x512 ![0, d, 0] w h) h1) h4) h5)
        (ix3 k i j)
      = w (ix3 k ⟨d, slice_lt h⟩ i) - w (ix3 k ⟨d, slice_lt h⟩ j) := by
  rw [subf_apply]
  rw [Cert.Keepdims3.broadcastTo_ab1_abc_apply, Cert.Keepdims3.shapeCast_ab_ab1_apply, shapeCast_a1b_ab_apply,
    slice3_axis1_apply d w h k (0 : Fin 1) i ⟨d, slice_lt h⟩ rfl,
    broadcastTo_a1b_acb_apply, shapeCast_ab_a1b_apply, shapeCast_a1b_ab_apply,
    slice3_axis1_apply d w h k (0 : Fin 1) j ⟨d, slice_lt h⟩ rfl]

/-- One of the sixteen terms, read at (k, i, j): the absolute value of that difference. -/
private theorem term_apply (w : FVec Ideal S16x16x512 .f32) (d : ℕ)
    (h : S16x16x512.Slices ![0, d, 0] S16x1x512) (h1 : S16x1x512.ShapeCasts S16x512)
    (h2 : S16x512.ShapeCasts S16x512x1) (h3 : S16x512x1.Broadcasts S16x512x512)
    (h4 : S16x512.ShapeCasts S16x1x512) (h5 : S16x1x512.Broadcasts S16x512x512)
    (k : Fin 16) (i j : Fin 512) :
    absf (subf
        (broadcastTo S16x512x512 (shapeCast S16x512x1 (shapeCast S16x512 (extractStridedSlice S16x1x512 ![0, d, 0] w h) h1) h2) h3)
        (broadcastTo S16x512x512 (shapeCast S16x1x512 (shapeCast S16x512 (extractStridedSlice S16x1x512 ![0, d, 0] w h) h1) h4) h5))
        (ix3 k i j)
      = gap w k i j ⟨d, slice_lt h⟩ := by
  rw [absf_apply, diff_apply w d h]
  rfl

/-- The penalty array, read at (k, i, j): the diagonal mask of the two coordinate arrays selects the constant where
    i = j and zero elsewhere. -/
private theorem penalty_apply (k : Fin 16) (i j : Fin 512) :
    broadcastTo S16x512x512
        (shapeCast S1x512x512
          (select
            (cmpi .eq (iota .tc S512x512 32 [0] iota_S512x512_d0_w32) (iota .tc S512x512 32 [1] iota_S512x512_d1_w32))
            (broadcast S512x512 (Scalar.ofBits (F := Ideal) .f32 0x49742400#32))
            (broadcast S512x512 (Scalar.ofBits (F := Ideal) .f32 0x00000000#32)))
          shapeCasts_S512x512_S1x512x512)
        broadcasts_S1x512x512_S16x512x512 (ix3 k i j)
      = penalty i j := by
  rw [broadcastTo_1ab_cab_apply, shapeCast_ab_1ab_apply, select_apply, broadcast_apply, broadcast_apply]
  show Scalar.select (IntOp.cmpi .eq (iota .tc S512x512 32 [0] iota_S512x512_d0_w32 (ix2 i j))
      (iota .tc S512x512 32 [1] iota_S512x512_d1_w32 (ix2 i j))) _ _ = _
  rw [iota_single_apply, iota_single_apply]
  show Scalar.select (IntOp.cmpi .eq (BitVec.ofNat 32 i.val) (BitVec.ofNat 32 j.val)) _ _ = _
  unfold penalty
  by_cases hij : i = j
  · subst hij
    have hc : IntOp.cmpi .eq (BitVec.ofNat 32 i.val) (BitVec.ofNat 32 i.val) = 1#1 := by simp [IntOp.cmpi]
    rw [if_pos rfl, hc, select_one]
    rfl
  · have hne : BitVec.ofNat 32 i.val ≠ BitVec.ofNat 32 j.val := by
      intro h
      have h' := congrArg BitVec.toNat h
      rw [BitVec.toNat_ofNat, BitVec.toNat_ofNat] at h'
      have := i.isLt
      have := j.isLt
      exact hij (Fin.ext (by omega))
    have hb : (BitVec.ofNat 32 i.val == BitVec.ofNat 32 j.val) = false := beq_eq_false_iff_ne.mpr hne
    have hc : IntOp.cmpi .eq (BitVec.ofNat 32 i.val) (BitVec.ofNat 32 j.val) = 0#1 := by simp [IntOp.cmpi, hb]
    rw [if_neg hij, hc, select_zero]
    exact Ideal.ofBits_zero_f32

/-- The running sum after features 0 to 4, read at (k, i, j). -/
private theorem pay3_apply (v : Vec Ideal S16x16x512 .f32) (k : Fin 16) (i j : Fin 512) :
    k1_pay3 (F := Ideal) v (ix3 k i j)
      = 0 + gap v k i j 0 + gap v k i j 1 + gap v k i j 2 + gap v k i j 3 + gap v k i j 4 := by
  unfold k1_pay3
  rw [pay2_eq]
  simp only [addf_apply, broadcast_apply, term_apply]
  rw [show Scalar.ofBits (F := Ideal) .f32 0x00000000#32 = 0 from Ideal.ofBits_zero_f32]
  rfl

/-- The difference of feature 5, read at (k, i, j). -/
private theorem pay4_apply (v : Vec Ideal S16x16x512 .f32) (k : Fin 16) (i j : Fin 512) :
    k1_pay4 (F := Ideal) v (ix3 k i j) = v (ix3 k 5 i) - v (ix3 k 5 j) := by
  unfold k1_pay4
  rw [pay2_eq, diff_apply]
  rfl

/-- The running sum after features 5 to 11, read at (k, i, j), from the running sum a before them and the difference b
    of feature 5. -/
private theorem pay5_apply (v : FVec Ideal S16x16x512 .f32) (a b : FVec Ideal S16x512x512 .f32) (k : Fin 16)
    (i j : Fin 512) :
    k1_pay5 (F := Ideal) v a b (ix3 k i j)
      = a (ix3 k i j) + max (b (ix3 k i j)) (-(b (ix3 k i j))) + gap v k i j 6 + gap v k i j 7 + gap v k i j 8
        + gap v k i j 9 + gap v k i j 10 + gap v k i j 11 := by
  unfold k1_pay5
  simp only [addf_apply, term_apply]
  rw [absf_apply]
  rfl

/-- The value the second kernel's body stores, at group `k` of the block and sample `i`, is the similarity of sample `i`
    over that group's sixteen features of the loaded block. -/
theorem stored_apply (v : Vec Ideal S16x16x512 .f32) (k : Fin 16) (i : Fin 512) :
    k1_pay1 (F := Ideal) (k1_pay2 v) (k1_pay5 (k1_pay2 v) (k1_pay3 v) (k1_pay4 v)) (k1_pay7 (k1_pay2 v)) (k1_pay8 (k1_pay2 v)) (ix2 k i)
      = sim (fun d n => v (ix3 k d n)) i := by
  rw [pay2_eq]
  unfold k1_pay1
  refine (Ideal.multiReduction_add_single _ _ reduces_S16x512x512_S16x512 _ _ (ix2 k i)).trans ?_
  unfold sim
  refine Finset.sum_congr rfl fun (j : Fin 512) _ => ?_
  have hidx : reduces_S16x512x512_S16x512.lift (ix2 k i) j = ix3 k i j := by
    funext a
    match a with
    | ⟨0, _⟩ => rfl
    | ⟨1, _⟩ => rfl
    | ⟨2, _⟩ => rfl
  rw [hidx]
  unfold k1_pay7 k1_pay8 k1_pay6
  simp only [exp_apply, subf_apply, addf_apply, broadcast_apply, term_apply, pay5_apply, pay3_apply, pay4_apply]
  rw [penalty_apply, show FloatOps.ofBits (F := Ideal) .f32 0x00000000#32 = 0 from Ideal.ofBits_zero_f32, zero_sub]
  have hdist : dist (fun d n => v (ix3 k d n)) i j = ∑ d, gap v k i j d := rfl
  rw [hdist, sum_sixteen]
  rfl

end Cert.KernelIdeal.PairBody

end
-- ==== Proof.PairArray.lean ====
/-
  The second kernel: from its four grid points to the array of similarities.

  Grid point t loads feature groups 16·t … 16·t + 15 (a block of the [64, 16, 512] feature array) and writes rows
  16·t … 16·t + 15 of the [64, 512] result. What its body stores at (k, i) is the similarity of sample i over group k of the
  loaded block, which is group 16·t + k of the feature array: so each point writes its block of ONE array, the similarity of
  every sample in every group, and the four blocks cover it.
-/
import proofs.«161638_j64802466562626_1_alg».proof.Proof.Gen.KernelIdeal.Frame
import proofs.«161638_j64802466562626_1_alg».proof.Proof.Spec
import proofs.«161638_j64802466562626_1_alg».proof.Proof.PairBody
import Idealize.ShloMosaic.Lib.Pipeline.Value
import Idealize.ShloMosaic.Lib.ValueIdx

noncomputable section

namespace Cert.KernelIdeal.PairArray

open Cert.KernelIdeal Cert.KernelIdeal.Gen Idealize.ShloMosaic Idealize.ShloMosaic.TcCoe Idealize.SL.Sem
open Idealize.ShloMosaic.ValueIdx Cert.BatchSim
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

variable (V : (c : Dev nD) → (b : Ref sig .tc) → Buf (Elt Ideal) ((c : Thread nD τ).loc b))

/-- The similarity of every sample in every group, from the feature array the region finds. -/
def simArr (c : Dev nD) : Vec Ideal S64x512 .f32 := fun y =>
  sim (fun d n => (V c main_v1 : S64x16x512.Idx → EReal) (ix3 (⟨(y 0).val, (y 0).isLt⟩ : Fin 64) d n)) ⟨(y 1).val, (y 1).isLt⟩

/-- Point t's blocks: groups 16·t … of the features, rows 16·t … of the result. -/
theorem idx_facts : ∀ t : Fin cfg1.N, win1_0.index t (0 : Fin 3) = t.val ∧ win1_0.index t (1 : Fin 3) = 0
    ∧ win1_0.index t (2 : Fin 3) = 0 ∧ win1_1.index t (0 : Fin 2) = t.val ∧ win1_1.index t (1 : Fin 2) = 0 ∧ t.val < 4 :=
  (by decide +kernel : ∀ t : Fin grid1.N, _)

/-- Every quarter of the rows is some point's block. -/
theorem idx_onto : ∀ q : Fin 4, ∃ t : Fin cfg1.N, win1_1.index t (0 : Fin 2) = q.val ∧ win1_1.index t (1 : Fin 2) = 0 :=
  (by decide +kernel : ∀ q : Fin 4, ∃ t : Fin grid1.N, _)

/-- The feature window's block at point t, entry (k, d, n), is the feature array's entry of group 16·t + k. -/
theorem block_apply (c : Dev nD) (t : Fin cfg1.N) (k : Fin 16) (d : Fin 16) (n : Fin 512) (K : Fin 64) (hK : K.val = 16 * t.val + k.val) :
    (iblk1 V c 0 t : Vec Ideal S16x16x512 .f32) (ix3 k d n) = (V c main_v1 : S64x16x512.Idx → EReal) (ix3 K d n) := by
  obtain ⟨e0, e1, e2, -⟩ := idx_facts t
  unfold iblk1
  rw [View.read_apply]
  show V c main_v1 _ = V c main_v1 _
  refine congrArg (V c main_v1) (funext fun a => Fin.ext ?_)
  match a with
  | ⟨0, _⟩ => show win1_0.index t (0 : Fin 3) * 16 + 1 * k.val = K.val; omega
  | ⟨1, _⟩ => show win1_0.index t (1 : Fin 3) * 16 + 1 * d.val = d.val; omega
  | ⟨2, _⟩ => show win1_0.index t (2 : Fin 3) * 512 + 1 * n.val = n.val; omega

/-- What point t writes back is its block of the similarities. -/
theorem flushed_eq (c : Dev nD) (t : Fin cfg1.N) :
    (dat1 V c).flushed 1 t = ((cfg1.win 1).blk t).view.read (Elt Ideal) (simArr V c) := by
  obtain ⟨-, -, -, e0, e1, ht⟩ := idx_facts t
  show (cfg1.win 1).cut (grid1.coords t) ((dat1 V c).after 1 t) = _
  rw [after1_1]
  unfold out1_1
  rw [View.canon_unit_zero hz2]
  simp only [View.ld_unit_zero (S := S16x16x512) hz3]
  have key : ∀ y : S16x512.Idx,
      k1_pay1 (F := Ideal) (k1_pay2 (iblk1 V c 0 t)) (k1_pay5 (k1_pay2 (iblk1 V c 0 t)) (k1_pay3 (iblk1 V c 0 t)) (k1_pay4 (iblk1 V c 0 t)))
          (k1_pay7 (k1_pay2 (iblk1 V c 0 t))) (k1_pay8 (k1_pay2 (iblk1 V c 0 t))) y
        = simArr V c (((cfg1.win 1).blk t).view.emb y) := fun y => by
    obtain ⟨k, i, rfl⟩ : ∃ (k : Fin 16) (i : Fin 512), y = ix2 k i := ⟨y 0, y 1, eq_ix2 y⟩
    refine (PairBody.stored_apply (iblk1 V c 0 t) k i).trans ?_
    unfold simArr
    have h0 : ((((cfg1.win 1).blk t).view.emb (ix2 k i)) 0).val = 16 * t.val + k.val := by
      show win1_1.index t (0 : Fin 2) * 16 + 1 * k.val = _; omega
    have h1 : ((((cfg1.win 1).blk t).view.emb (ix2 k i)) 1).val = i.val := by
      show win1_1.index t (1 : Fin 2) * 512 + 1 * i.val = i.val; omega
    refine congr (congrArg sim (funext fun d => funext fun n => ?_)) (Fin.ext h1.symm)
    exact block_apply V c t k d n _ h0
  exact funext key

/-- After the region the result array is the similarity of every sample in every group. -/
theorem final (c : Dev nD) : (dat1 V c).arrAt 1 cfg1.N = simArr V c :=
  (dat1 V c).arrAt_eq_of_cover 1 (simArr V c) (fun t _ => flushed_eq V c t) fun i => by
    have h0 : (i 0 : Nat) < 64 := (i 0).isLt
    have h1 : (i 1 : Nat) < 512 := (i 1).isLt
    obtain ⟨t, q0, q1⟩ := idx_onto ⟨(i 0).val / 16, by omega⟩
    refine ⟨t, flush1_1 t, ?_⟩
    show i ∈ ((View.whole main_v2).slice (win1_1.rect t)).set
    rw [View.set_slice_whole, Rect.mem_set_unit]
    intro a
    match a with
    | ⟨0, _⟩ => show win1_1.index t (0 : Fin 2) * 16 ≤ (i 0 : Nat) ∧ (i 0 : Nat) < win1_1.index t (0 : Fin 2) * 16 + 16
                rw [q0]; show (i 0 : Nat) / 16 * 16 ≤ (i 0 : Nat) ∧ (i 0 : Nat) < (i 0 : Nat) / 16 * 16 + 16; omega
    | ⟨1, _⟩ => show win1_1.index t (1 : Fin 2) * 512 ≤ (i 1 : Nat) ∧ (i 1 : Nat) < win1_1.index t (1 : Fin 2) * 512 + 512
                rw [q1]; omega

end Cert.KernelIdeal.PairArray

end
-- ==== Proof.KernelValue.lean ====
/-
  The kernel program's result, as one function of its three arguments.

  Between the two kernels the host regroups the projection's 1024 feature rows as 64 groups of 16 (a reshape: row 16·k + d
  becomes coordinate d of group k); after them it transposes the [64, 512] similarities to [512, 64] and appends them to the
  batch's 512 columns. So entry (n, k) of the transposed array is the similarity of sample n over the sixteen projected
  features of group k: `groupSim`, the same function of the arguments the reference computes there.
-/
import proofs.«161638_j64802466562626_1_alg».proof.Proof.Gen.KernelIdeal.Frame
import proofs.«161638_j64802466562626_1_alg».proof.Proof.Spec
import proofs.«161638_j64802466562626_1_alg».proof.Proof.Linear
import proofs.«161638_j64802466562626_1_alg».proof.Proof.PairArray
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.KernelValue

open Cert.KernelIdeal Cert.KernelIdeal.Gen Idealize.ShloMosaic Idealize.ShloMosaic.TcCoe Idealize.SL.Sem
open Idealize.ShloMosaic.ValueIdx Cert.BatchSim Idealize.ShloMosaic.StableHlo

variable (m : (ℓ : Loc nD τ sig) → Buf (Elt Ideal) ℓ) (ρ : Dev nD → PrngReg)

/-- The feature array the second kernel finds is the first kernel's result regrouped. -/
theorem feat_entry (c : Dev nD) :
    V2 m ρ c main_v1 = shapeCast S64x16x512 (W1 m ρ c (Proc.devRef .tc main_v0)) shapeCasts_S1024x512_S64x16x512 := by
  show StableHlo.after hostOps1 (W1 m ρ c) (Proc.devRef .tc main_v1) = _
  after_results
  rfl

/-- Its entry (k, d, j) is feature row 16·k + d of sample j: the projection of the launch arguments. -/
theorem feat_apply (c : Dev nD) (k : Fin 64) (d : Fin 16) (j : Fin 512) :
    (V2 m ρ c main_v1 : S64x16x512.Idx → EReal) (ix3 k d j)
      = proj (m ((c : Thread nD τ).loc main_arg0)) (m ((c : Thread nD τ).loc main_arg1)) (m ((c : Thread nD τ).loc main_arg2)) (row k d) j := by
  rw [feat_entry]
  rw [shapeCast_apply _ shapeCasts_S1024x512_S64x16x512 (ix3 k d j) (ix2 (row k d) j) (by
    rw [Shape.rowMajor_val_two, Shape.rowMajor_val_three]
    show (k.val * 16 + d.val) * 512 + j.val = (k.val * 16 + d.val) * 512 + j.val
    rfl)]
  rw [show W1 m ρ c (Proc.devRef .tc main_v0) = (dat0 (V0 m ρ) c).arrAt 3 cfg0.N from W1_arr m ρ c 3, Linear.final (V0 m ρ) c]
  rfl

/-- The batch is untouched when the last host operations run. -/
theorem batch_kept (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := by
          show StableHlo.after hostOps1 (W1 m ρ c) (Proc.devRef .tc main_arg0) = _
          after_results
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The result array: the batch's columns, then the transposed similarities. -/
theorem result_entry (c : Dev nD) :
    W4 m ρ c (Proc.devRef .tc main_v4)
      = concatenate S512x576 1 [⟨S512x512, m ((c : Thread nD τ).loc main_arg0)⟩,
          ⟨S512x64, transpose S512x64 [1, 0] (PairArray.simArr (V2 m ρ) c) transposes_S64x512_S512x64_1_0⟩]
          concatenates_S512x512_S512x64_S512x576_d1 := by
  have e : W4 m ρ c (Proc.devRef .tc main_v4)
      = concatenate S512x576 1 [⟨S512x512, W3 m ρ c (Proc.devRef .tc main_arg0)⟩,
          ⟨S512x64, transpose S512x64 [1, 0] (W3 m ρ c (Proc.devRef .tc main_v2)) transposes_S64x512_S512x64_1_0⟩]
          concatenates_S512x512_S512x64_S512x576_d1 := by
    show StableHlo.after hostOps2 (W3 m ρ c) (Proc.devRef .tc main_v4) = _
    after_results
  rw [e, batch_kept,
    show W3 m ρ c (Proc.devRef .tc main_v2) = (dat1 (V2 m ρ) c).arrAt 1 cfg1.N from W3_arr m ρ c 1, PairArray.final (V2 m ρ) c]

/-- Entry (n, k) of the transposed similarities is the group similarity of sample n in group k. -/
theorem sims_apply (c : Dev nD) (n : Fin 512) (k : Fin 64) :
    transpose S512x64 [1, 0] (PairArray.simArr (V2 m ρ) c) transposes_S64x512_S512x64_1_0 (ix2 n k)
      = groupSim (m ((c : Thread nD τ).loc main_arg0)) (m ((c : Thread nD τ).loc main_arg1)) (m ((c : Thread nD τ).loc main_arg2)) k n := by
  rw [transpose_ix2_apply]
  unfold PairArray.simArr groupSim
  refine congrArg (fun f => sim f n) (funext fun d => funext fun j => ?_)
  exact feat_apply m ρ c k d j

end Cert.KernelIdeal.KernelValue

end
-- ==== Proof.RefValue.lean ====
/-
  The reference, read at an entry of its last computed array.

  The reference projects the batch (x · Wᵀ + b), regroups the 1024 feature columns of each sample as 64 groups of 16,
  forms for every pair of samples (i, j) and every group the sum over the group's 16 features of |f(i) − f(j)|, adds the
  diagonal penalty (the identity matrix times a fixed constant), negates, exponentiates and sums over j. Entry (n, k) of
  that array is the group similarity `groupSim` of sample n in group k: the product under the projection's sum commutes,
  the identity matrix's entries 1 and 0 times the constant are the constant and zero, and the reshape sends feature
  column 16·k + d to coordinate d of group k.
-/
import proofs.«161638_j64802466562626_1_alg».proof.Proof.Gen.ReferenceIdeal.Run
import proofs.«161638_j64802466562626_1_alg».proof.Proof.Gen.ReferenceIdeal.Read
import proofs.«161638_j64802466562626_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.BatchSim

/-- Feature row `r` of sample `n` in the reference: the weights are read transposed, so the product under the sum is
    the spec's with its factors exchanged, and the broadcast bias reads the row's entry. -/
private theorem proj_apply (x0 : (⟨S512x512, .f32⟩ : BufTy).Contents (Elt Ideal)) (x1 : (⟨S1024x512, .f32⟩ : BufTy).Contents (Elt Ideal))
    (x2 : (⟨S1024, .f32⟩ : BufTy).Contents (Elt Ideal)) (n : Fin 512) (r : Fin 1024) :
    val_main_v4 (F := Ideal) x0 x1 x2 (ix2 n r) = proj x0 x1 x2 r n := by
  rw [val_main_v4_apply, Ideal.addf_def, val_main_v1_apply, val_main_v3_apply, val_main_v2_apply]
  unfold proj
  have hb : idx_main_v2 (idx_main_v3 (ix2 n r)) = ix1 r := funext fun a => match a with | ⟨0, _⟩ => rfl
  rw [hb]
  congr 1
  refine Finset.sum_congr rfl fun c _ => ?_
  rw [val_main_v0_apply, mul_comm]
  have hl : lidx_main_v1 (ix2 n r) c = ix2 n c := funext fun a => match a with | ⟨0, _⟩ => rfl | ⟨1, _⟩ => rfl
  have hr : idx_main_v0 (ridx_main_v1 (ix2 n r) c) = ix2 r c := funext fun a => match a with | ⟨0, _⟩ => rfl | ⟨1, _⟩ => rfl
  rw [hl, hr]

/-- The reshape sends feature column `16·k + d` of sample `n` to coordinate `d` of group `k`. -/
private theorem feature_apply (x0 : (⟨S512x512, .f32⟩ : BufTy).Contents (Elt Ideal)) (x1 : (⟨S1024x512, .f32⟩ : BufTy).Contents (Elt Ideal))
    (x2 : (⟨S1024, .f32⟩ : BufTy).Contents (Elt Ideal)) (n : Fin 512) (k : Fin 64) (d : Fin 16) :
    val_main_v5 (F := Ideal) x0 x1 x2 (ix3 n k d) = proj x0 x1 x2 (row k d) n := by
  rw [val_main_v5_apply]
  have h : idx_main_v5 (ix3 n k d) = ix2 n (row k d) := funext fun a => Fin.ext (by
    have hn := n.isLt; have hk := k.isLt; have hd := d.isLt
    match a with
    | ⟨0, _⟩ => show ((n.val * 64 + k.val) * 16 + d.val) / 1024 = n.val; omega
    | ⟨1, _⟩ => show ((n.val * 64 + k.val) * 16 + d.val) % 1024 = k.val * 16 + d.val; omega)
  rw [h, proj_apply]

/-- The absolute difference of samples `n` and `j` on coordinate `d` of group `k`. -/
private theorem absdiff_apply (x0 : (⟨S512x512, .f32⟩ : BufTy).Contents (Elt Ideal)) (x1 : (⟨S1024x512, .f32⟩ : BufTy).Contents (Elt Ideal))
    (x2 : (⟨S1024, .f32⟩ : BufTy).Contents (Elt Ideal)) (n : Fin 512) (k : Fin 64) (d : Fin 16) (j : Fin 512) :
    val_main_v12 (F := Ideal) x0 x1 x2 (ix4 n k d j)
      = max (proj x0 x1 x2 (row k d) n - proj x0 x1 x2 (row k d) j) (-(proj x0 x1 x2 (row k d) n - proj x0 x1 x2 (row k d) j)) := by
  have h1 : idx_main_v6 (idx_main_v9 (ix4 n k d j)) = ix3 n k d :=
    funext fun a => match a with | ⟨0, _⟩ => rfl | ⟨1, _⟩ => rfl | ⟨2, _⟩ => rfl
  have h2 : idx_main_v7 (idx_main_v8 (idx_main_v10 (ix4 n k d j))) = ix3 j k d :=
    funext fun a => match a with | ⟨0, _⟩ => rfl | ⟨1, _⟩ => rfl | ⟨2, _⟩ => rfl
  rw [val_main_v12_apply, Ideal.hostAbsf_def, Ideal.absf_def, val_main_v11_apply, Ideal.subf_def,
    val_main_v9_apply, val_main_v6_apply, val_main_v10_apply, val_main_v8_apply, val_main_v7_apply,
    h1, h2, feature_apply, feature_apply]

/-- The sum over a group's sixteen coordinates is the L1 distance of the two samples in that group. -/
private theorem dist_apply (x0 : (⟨S512x512, .f32⟩ : BufTy).Contents (Elt Ideal)) (x1 : (⟨S1024x512, .f32⟩ : BufTy).Contents (Elt Ideal))
    (x2 : (⟨S1024, .f32⟩ : BufTy).Contents (Elt Ideal)) (n : Fin 512) (k : Fin 64) (j : Fin 512) :
    val_main_v13 (F := Ideal) x0 x1 x2 (ix3 n k j) = BatchSim.dist (fun d m => proj x0 x1 x2 (row k d) m) n j := by
  rw [val_main_v13_apply, val_main_cst_apply, Ideal.ofBits_def, Ideal.ofBits_zero_f32, zero_add]
  unfold BatchSim.dist
  refine Finset.sum_congr rfl fun d _ => ?_
  have h : idx_main_v13 (ix3 n k j) d = ix4 n k d j :=
    funext fun a => match a with | ⟨0, _⟩ => rfl | ⟨1, _⟩ => rfl | ⟨2, _⟩ => rfl | ⟨3, _⟩ => rfl
  rw [h, absdiff_apply]

/-- Two sample numbers give the same 32-bit word only when they are the same sample. -/
private theorem word_eq_iff (n j : Fin 512) : BitVec.ofNat 32 n.val = BitVec.ofNat 32 j.val ↔ n = j := by
  constructor
  · intro h
    have e := congrArg BitVec.toNat h
    rw [BitVec.toNat_ofNat, BitVec.toNat_ofNat,
      Nat.mod_eq_of_lt (lt_trans n.isLt (by norm_num)), Nat.mod_eq_of_lt (lt_trans j.isLt (by norm_num))] at e
    exact Fin.ext e
  · rintro rfl; rfl

/-- The identity matrix's entry: one on the diagonal, zero off it. -/
private theorem eye_apply (n j : Fin 512) :
    val_main_v19 (F := Ideal) (ix2 n j) = if n = j then 1 else 0 := by
  rw [val_main_v19_apply, val_main_v18_apply, val_main_v17_apply, val_main_v14_apply, val_main_v15_apply,
    val_main_v16_apply, val_main_c_apply]
  show (((IntOp.cmpi .eq (IntOp.addi (BitVec.ofNat 32 n.val) 0#32) (BitVec.ofNat 32 j.val)).toNat : ℝ) : EReal) = _
  have hadd : IntOp.addi (BitVec.ofNat 32 n.val) 0#32 = BitVec.ofNat 32 n.val := BitVec.add_zero _
  rw [hadd]
  by_cases h : n = j
  · subst h
    have hc : IntOp.cmpi .eq (BitVec.ofNat 32 n.val) (BitVec.ofNat 32 n.val) = 1#1 := by
      simp [IntOp.cmpi]
    rw [if_pos rfl, hc]
    simp
  · have hne : BitVec.ofNat 32 n.val ≠ BitVec.ofNat 32 j.val := fun e => h ((word_eq_iff n j).mp e)
    have hc : IntOp.cmpi .eq (BitVec.ofNat 32 n.val) (BitVec.ofNat 32 j.val) = 0#1 := by
      show BitVec.ofBool (BitVec.ofNat 32 n.val == BitVec.ofNat 32 j.val) = 0#1
      rw [beq_eq_false_iff_ne.mpr hne]
      rfl
    rw [if_neg h, hc]
    simp

/-- The identity matrix times the constant is the diagonal penalty, the same in every group. -/
private theorem penalty_apply (n : Fin 512) (k : Fin 64) (j : Fin 512) :
    val_main_v23 (F := Ideal) (ix3 n k j) = penalty n j := by
  have h : idx_main_v20 (idx_main_v23 (ix3 n k j)) = ix2 n j :=
    funext fun a => match a with | ⟨0, _⟩ => rfl | ⟨1, _⟩ => rfl
  rw [val_main_v23_apply, val_main_v22_apply, Ideal.mulf_def, val_main_v20_apply, val_main_v21_apply,
    val_main_cst_0_apply, Ideal.ofBits_def, h, eye_apply]
  unfold penalty
  by_cases e : n = j
  · rw [if_pos e, if_pos e, one_mul]
  · rw [if_neg e, if_neg e, zero_mul]

/-- Entry (n, k) of the reference's array of similarities is the group similarity of sample `n` in group `k`. -/
theorem similarities_apply (x0 : (⟨S512x512, .f32⟩ : BufTy).Contents (Elt Ideal)) (x1 : (⟨S1024x512, .f32⟩ : BufTy).Contents (Elt Ideal))
    (x2 : (⟨S1024, .f32⟩ : BufTy).Contents (Elt Ideal)) (n : Fin 512) (k : Fin 64) :
    val_main_v27 (F := Ideal) x0 x1 x2 (ix2 n k) = groupSim x0 x1 x2 k n := by
  have h : ∀ j : Fin 512, idx_main_v27 (ix2 n k) j = ix3 n k j := fun j =>
    funext fun a => match a with | ⟨0, _⟩ => rfl | ⟨1, _⟩ => rfl | ⟨2, _⟩ => rfl
  rw [val_main_v27_apply, val_main_cst_1_apply, Ideal.ofBits_def, Ideal.ofBits_zero_f32, zero_add]
  unfold groupSim sim
  refine Finset.sum_congr rfl fun j _ => ?_
  rw [h, val_main_v26_apply, Ideal.hostUnary_exp_def, val_main_v25_apply, Ideal.hostNegf_def, Ideal.negf_def,
    val_main_v24_apply, Ideal.addf_def, dist_apply, penalty_apply]

end Cert.ReferenceIdeal.RefValue

end
-- ==== Proof.lean ====
/-
  Both programs compute, from a batch x, weights W and a bias b, the array whose first 512 columns are x and whose column
  512 + k holds, for sample n, the similarity of n to the batch over feature group k:
  Σ_j exp(−(Σ_d |f(n, k, d) − f(j, k, d)| + penalty(n, j))), with f = x·Wᵀ + b regrouped as 64 groups of 16 and the penalty a
  fixed constant on the diagonal (`Cert.BatchSim.groupSim`).

  The kernel program does it in two kernels — the projection as W·xᵀ (+ b along rows), then per block of 16 groups the
  pairwise sums accumulated one feature at a time — with a reshape between them and a transpose and a concatenation after;
  the reference does it in one pass of host operations. Over the extended reals the two agree entry by entry: products
  commute under the projection's sum, sixteen successive additions onto zero are the sum over the group, 1·c = c and 0·c = 0
  for the identity matrix against the select, and 0 − a = −a. No law used needs a finite entry, so the precondition is not
  opened.
-/
import proofs.«161638_j64802466562626_1_alg».proof.Defs
import proofs.«161638_j64802466562626_1_alg».proof.Proof.Gen.Kernel
import proofs.«161638_j64802466562626_1_alg».proof.Proof.Gen.Kernel.Frame
import proofs.«161638_j64802466562626_1_alg».proof.Proof.Gen.KernelIdeal
import proofs.«161638_j64802466562626_1_alg».proof.Proof.Gen.KernelIdeal.Frame
import proofs.«161638_j64802466562626_1_alg».proof.Proof.Gen.ReferenceIdeal
import proofs.«161638_j64802466562626_1_alg».proof.Proof.Gen.ReferenceIdeal.Run
import proofs.«161638_j64802466562626_1_alg».proof.Proof.Gen.ReferenceIdeal.Read
import proofs.«161638_j64802466562626_1_alg».proof.Proof.Gen.Pre_finite_inputs
import proofs.«161638_j64802466562626_1_alg».proof.Proof.RunValue
import proofs.«161638_j64802466562626_1_alg».proof.Proof.KernelValue
import proofs.«161638_j64802466562626_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel program's transposed similarities are the reference's array of similarities, entry by entry: both are
    the group similarity of the sample in the group. -/
theorem sims_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    transpose Cert.KernelIdeal.S512x64 [1, 0] (Cert.KernelIdeal.PairArray.simArr (Cert.KernelIdeal.Gen.V2 m ρ) c)
        Cert.KernelIdeal.Facts₀.transposes_S64x512_S512x64_1_0
      = Cert.ReferenceIdeal.Read.val_main_v27 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  funext y
  obtain ⟨n, k, rfl⟩ : ∃ (n : Fin 512) (k : Fin 64), y = ix2 n k := ⟨y 0, y 1, eq_ix2 y⟩
  rw [Cert.KernelIdeal.KernelValue.sims_apply m ρ c n k]
  exact (Cert.ReferenceIdeal.RefValue.similarities_apply _ _ _ n k).symm

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the batch's columns followed by the group
    similarities. -/
theorem algebraic : Cert.algebraic_KernelIdeal_ReferenceIdeal := by
  intro m ρ m' ρ' _ hagree
  refine ⟨fun c => Cert.KernelIdeal.Gen.W4 m ρ c (Proc.devRef .tc Cert.KernelIdeal.main_v4),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2]
  show _ = Cert.KernelIdeal.Gen.W4 m ρ c (Proc.devRef .tc Cert.KernelIdeal.main_v4)
  rw [Cert.KernelIdeal.KernelValue.result_entry m ρ c, sims_eq m ρ c]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
